-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S512x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S14336x4096 : Shape := ⟨2, ![14336, 4096]⟩
abbrev S14336x64 : Shape := ⟨2, ![14336, 64]⟩
abbrev S16x4096 : Shape := ⟨2, ![16, 4096]⟩
abbrev S14336x16 : Shape := ⟨2, ![14336, 16]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S14336x64 : S_.BroadcastsInDim S14336x64 (![] : Fin 0 → Fin S14336x64.rank)
  reducesTo_S14336x64_S_d0_1 : S14336x64.ReducesTo [0, 1] S_
  bcast_S_S16x4096 : S_.BroadcastsInDim S16x4096 (![] : Fin 0 → Fin S16x4096.rank)
  reducesTo_S16x4096_S_d0_1 : S16x4096.ReducesTo [0, 1] S_
  bcast_S_S14336x16 : S_.BroadcastsInDim S14336x16 (![] : Fin 0 → Fin S14336x16.rank)
  reducesTo_S14336x16_S_d0_1 : S14336x16.ReducesTo [0, 1] S_
  bcast_S_S14336x4096 : S_.BroadcastsInDim S14336x4096 (![] : Fin 0 → Fin S14336x4096.rank)
  reducesTo_S14336x4096_S_d0_1 : S14336x4096.ReducesTo [0, 1] S_

variable [Facts]

def fn_part1 {F : FTy → Type} [FloatOps F] (main_arg1 : IVec S14336x4096 32) (main_v13 : IVec S_ 1) (main_v16 : IVec S14336x16 1) : IVec S_ 1 :=
  let main_c_5 : IVec S_ 1 := constantI S_ 1 1#1
  let main_v17 : IVec S_ 1 := (fun x v => Host.reduce IntOp.andi x v reducesTo_S14336x16_S_d0_1 h_S_) main_v16 main_c_5
  let main_v18 : IVec S_ 1 := andi main_v13 main_v17
  let main_c_6 : IVec S_ 32 := constantI S_ 32 0#32
  let main_v19 : IVec S14336x4096 32 := broadcastInDim S14336x4096 ![] bcast_S_S14336x4096 main_c_6
  let main_v20 : IVec S14336x4096 1 := cmpi .sge main_arg1 main_v19
  let main_c_7 : IVec S_ 1 := constantI S_ 1 1#1
  let main_v21 : IVec S_ 1 := (fun x v => Host.reduce IntOp.andi x v reducesTo_S14336x4096_S_d0_1 h_S_) main_v20 main_c_7
  let main_v22 : IVec S_ 1 := andi main_v18 main_v21
  let main_c_8 : IVec S_ 32 := constantI S_ 32 16#32
  let main_v23 : IVec S14336x4096 32 := broadcastInDim S14336x4096 ![] bcast_S_S14336x4096 main_c_8
  let main_v24 : IVec S14336x4096 1 := cmpi .slt main_arg1 main_v23
  let main_c_9 : IVec S_ 1 := constantI S_ 1 1#1
  let main_v25 : IVec S_ 1 := (fun x v => Host.reduce IntOp.andi x v reducesTo_S14336x4096_S_d0_1 h_S_) main_v24 main_c_9
  let main_v26 : IVec S_ 1 := andi main_v22 main_v25
  main_v26

def fn {F : FTy → Type} [FloatOps F] (main_arg0 : FVec F S64x4096 .f32) (main_arg1 : IVec S14336x4096 32) (main_arg2 : FVec F S14336x64 .f32) (main_arg3 : FVec F S16x4096 .f32) (main_arg4 : FVec F S14336x16 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S14336x64 .f32 := Host.absf main_arg2
  let main_cst_0 : FVec F S_ .f32 := constant S_ .f32 0x7F800000#32
  let main_v5 : FVec F S14336x64 .f32 := broadcastInDim S14336x64 ![] bcast_S_S14336x64 main_cst_0
  let main_v6 : IVec S14336x64 1 := cmpf .olt main_v4 main_v5
  let main_c_1 : IVec S_ 1 := constantI S_ 1 1#1
  let main_v7 : IVec S_ 1 := (fun x v => Host.reduce IntOp.andi x v reducesTo_S14336x64_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S14336x16 .f32 := Host.absf main_arg4
  let main_cst_4 : FVec F S_ .f32 := constant S_ .f32 0x7F800000#32
  let main_v15 : FVec F S14336x16 .f32 := broadcastInDim S14336x16 ![] bcast_S_S14336x16 main_cst_4
  let main_v16 : IVec S14336x16 1 := cmpf .olt main_v14 main_v15
  fn_part1 (F := F) main_arg1 main_v13 main_v16
-- ==== Kernel.lean ====
abbrev S64x4096 : Shape := ⟨2, ![64, 4096]⟩
abbrev S14336x4096 : Shape := ⟨2, ![14336, 4096]⟩
abbrev S14336x64 : Shape := ⟨2, ![14336, 64]⟩
abbrev S16x4096 : Shape := ⟨2, ![16, 4096]⟩
abbrev S14336x16 : Shape := ⟨2, ![14336, 16]⟩
abbrev S4096x16 : Shape := ⟨2, ![4096, 16]⟩
abbrev S64x16 : Shape := ⟨2, ![64, 16]⟩
abbrev S64x14336 : Shape := ⟨2, ![64, 14336]⟩
abbrev S512x4096 : Shape := ⟨2, ![512, 4096]⟩
abbrev S512x64 : Shape := ⟨2, ![512, 64]⟩
abbrev S512x16 : Shape := ⟨2, ![512, 16]⟩
abbrev S64x512 : Shape := ⟨2, ![64, 512]⟩
abbrev S512x64x1 : Shape := ⟨3, ![512, 64, 1]⟩
abbrev S512x64x64 : Shape := ⟨3, ![512, 64, 64]⟩

abbrev nBuf : Space → Nat
  | .hbm => 12
  | .vmem => 11
  | .smem => 0
  | _ => 0

abbrev bufTy : (tb : Table) → Fin (tcTables nBuf tb) → BufTy
  | .hbm, ⟨0, _⟩ => ⟨S64x4096, .f32⟩
  | .hbm, ⟨1, _⟩ => ⟨S14336x4096, .i32⟩
  | .hbm, ⟨2, _⟩ => ⟨S14336x64, .f32⟩
  | .hbm, ⟨3, _⟩ => ⟨S16x4096, .f32⟩
  | .hbm, ⟨4, _⟩ => ⟨S14336x16, .f32⟩
  | .hbm, ⟨5, _⟩ => ⟨S4096x16, .f32⟩
  | .hbm, ⟨6, _⟩ => ⟨S64x16, .f32⟩
  | .hbm, ⟨7, _⟩ => ⟨S64x4096, .bf16⟩
  | .hbm, ⟨8, _⟩ => ⟨S64x4096, .f32⟩
  | .hbm, ⟨9, _⟩ => ⟨S64x4096, .f32⟩
  | .hbm, ⟨10, _⟩ => ⟨S64x4096, .bf16⟩
  | .hbm, ⟨11, _⟩ => ⟨S64x14336, .f32⟩
  | .local _ .vmem, ⟨0, _⟩ => ⟨S64x4096, .bf16⟩
  | .local _ .vmem, ⟨1, _⟩ => ⟨S64x4096, .bf16⟩
  | .local _ .vmem, ⟨2, _⟩ => ⟨S512x4096, .i32⟩
  | .local _ .vmem, ⟨3, _⟩ => ⟨S512x4096, .i32⟩
  | .local _ .vmem, ⟨4, _⟩ => ⟨S512x64, .f32⟩
  | .local _ .vmem, ⟨5, _⟩ => ⟨S512x64, .f32⟩
  | .local _ .vmem, ⟨6, _⟩ => ⟨S64x16, .f32⟩
  | .local _ .vmem, ⟨7, _⟩ => ⟨S512x16, .f32⟩
  | .local _ .vmem, ⟨8, _⟩ => ⟨S512x16, .f32⟩
  | .local _ .vmem, ⟨9, _⟩ => ⟨S64x512, .f32⟩
  | .local _ .vmem, ⟨10, _⟩ => ⟨S64x512, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S16x4096_S4096x16_1_0 : S16x4096.Transposes [1, 0] S4096x16
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S512x64_S512x64_0_0 : ∀ a, (![0, 0] : Fin 2 → Nat) a + S512x64.size a ≤ S512x64.size a
  h_S512x64 : 0 < S512x64.numel
  shapeCasts_S512x64_S512x64x1 : S512x64.ShapeCasts S512x64x1
  broadcasts_S512x64x1_S512x64x64 : S512x64x1.Broadcasts S512x64x64
  shapeCasts_S512x64x64_S512x4096 : S512x64x64.ShapeCasts S512x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S512x16_S512x16_0_0 : ∀ a, (![0, 0] : Fin 2 → Nat) a + S512x16.size a ≤ S512x16.size a
  h_S512x16 : 0 < S512x16.numel
  inb_S64x512_S64x512_0_0 : ∀ a, (![0, 0] : Fin 2 → Nat) a + S64x512.size a ≤ S64x512.size a
  h_S64x512 : 0 < S64x512.numel
  dot_S64x4096_S4096x16_S64x16_1_0_0_1_n_n_wf : DotDims.WF S64x4096 S4096x16 S64x16 [1] [0] [0] [1] [] []
  dot_S64x4096_S512x4096_S64x512_1_1_0_0_n_n_wf : DotDims.WF S64x4096 S512x4096 S64x512 [1] [1] [0] [0] [] []
  dot_S64x16_S512x16_S64x512_1_1_0_0_n_n_wf : DotDims.WF S64x16 S512x16 S64x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .bf16 = 32 ∨ (Rect.block (s := S64x4096) S64x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S14336x4096.size a
  hwx0_2 : ∀ i : grid0.Coords, EltTy.bits .i32 = 32 ∨ (Rect.block (s := S14336x4096) S512x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S14336x64.size a
  hwx0_3 : ∀ i : grid0.Coords, EltTy.bits .f32 = 32 ∨ (Rect.block (s := S14336x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x16.size a ≤ S14336x16.size a
  hwx0_5 : ∀ i : grid0.Coords, EltTy.bits .f32 = 32 ∨ (Rect.block (s := S14336x16) S512x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x14336.size a
  hwx0_6 : ∀ i : grid0.Coords, EltTy.bits .f32 = 32 ∨ (Rect.block (s := S64x14336) S64x512.size (cc0_transform_6 i) (hinb0_6 i)).WholeWords (EltTy.packing .f32)

variable [Facts₀]

def dot_S64x4096_S4096x16_S64x16_1_0_0_1_n_n : DotDims S64x4096 S4096x16 S64x16 where
  lhsContracting := [1]
  rhsContracting := [0]
  lhsNonContracting := [0]
  rhsNonContracting := [1]
  lhsBatch := []
  rhsBatch := []
  wf := dot_S64x4096_S4096x16_S64x16_1_0_0_1_n_n_wf
def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf
def dot_S64x16_S512x16_S64x512_1_1_0_0_n_n : DotDims S64x16 S512x16 S64x512 where
  lhsContracting := [1]
  rhsContracting := [1]
  lhsNonContracting := [0]
  rhsNonContracting := [0]
  lhsBatch := []
  rhsBatch := []
  wf := dot_S64x16_S512x16_S64x512_1_1_0_0_n_n_wf

abbrev win0_0 : Pipeline.Window sig grid0 :=
  Pipeline.Window.ofSpec (Memref.whole main_v2) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S64x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x4096 : Shape := ⟨2, ![64, 4096]⟩
abbrev S14336x4096 : Shape := ⟨2, ![14336, 4096]⟩
abbrev S14336x64 : Shape := ⟨2, ![14336, 64]⟩
abbrev S16x4096 : Shape := ⟨2, ![16, 4096]⟩
abbrev S14336x16 : Shape := ⟨2, ![14336, 16]⟩
abbrev S16 : Shape := ⟨1, ![16]⟩
abbrev S_ : Shape := ⟨0, ![]⟩
abbrev S14336x4096x1 : Shape := ⟨3, ![14336, 4096, 1]⟩
abbrev S14336x64x64 : Shape := ⟨3, ![14336, 64, 64]⟩
abbrev S14336x64x1 : Shape := ⟨3, ![14336, 64, 1]⟩
abbrev S4096x14336 : Shape := ⟨2, ![4096, 14336]⟩
abbrev S64x14336 : Shape := ⟨2, ![64, 14336]⟩
abbrev S4096x16 : Shape := ⟨2, ![4096, 16]⟩
abbrev S64x16 : Shape := ⟨2, ![64, 16]⟩
abbrev S16x14336 : Shape := ⟨2, ![16, 14336]⟩

abbrev nBuf : Space → Nat
  | .hbm => 30
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S14336x4096, .i32⟩
  | .hbm, ⟨2, _⟩ => ⟨S14336x64, .f32⟩
  | .hbm, ⟨3, _⟩ => ⟨S16x4096, .f32⟩
  | .hbm, ⟨4, _⟩ => ⟨S14336x16, .f32⟩
  | .hbm, ⟨5, _⟩ => ⟨S16, .f32⟩
  | .hbm, ⟨6, _⟩ => ⟨S_, .i32⟩
  | .hbm, ⟨7, _⟩ => ⟨S14336x4096, .i32⟩
  | .hbm, ⟨8, _⟩ => ⟨S14336x4096, .i1⟩
  | .hbm, ⟨9, _⟩ => ⟨S_, .i32⟩
  | .hbm, ⟨10, _⟩ => ⟨S14336x4096, .i32⟩
  | .hbm, ⟨11, _⟩ => ⟨S14336x4096, .i32⟩
  | .hbm, ⟨12, _⟩ => ⟨S14336x4096, .i32⟩
  | .hbm, ⟨13, _⟩ => ⟨S14336x4096x1, .i32⟩
  | .hbm, ⟨14, _⟩ => ⟨S14336x4096, .f32⟩
  | .hbm, ⟨15, _⟩ => ⟨S14336x64x64, .f32⟩
  | .hbm, ⟨16, _⟩ => ⟨S14336x64x1, .f32⟩
  | .hbm, ⟨17, _⟩ => ⟨S14336x64x64, .f32⟩
  | .hbm, ⟨18, _⟩ => ⟨S14336x64x64, .f32⟩
  | .hbm, ⟨19, _⟩ => ⟨S14336x4096, .f32⟩
  | .hbm, ⟨20, _⟩ => ⟨S4096x14336, .f32⟩
  | .hbm, ⟨21, _⟩ => ⟨S64x14336, .f32⟩
  | .hbm, ⟨22, _⟩ => ⟨S4096x16, .f32⟩
  | .hbm, ⟨23, _⟩ => ⟨S64x16, .f32⟩
  | .hbm, ⟨24, _⟩ => ⟨S16x14336, .f32⟩
  | .hbm, ⟨25, _⟩ => ⟨S64x14336, .f32⟩
  | .hbm, ⟨26, _⟩ => ⟨S_, .f32⟩
  | .hbm, ⟨27, _⟩ => ⟨S64x14336, .f32⟩
  | .hbm, ⟨28, _⟩ => ⟨S64x14336, .f32⟩
  | .hbm, ⟨29, _⟩ => ⟨S64x14336, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S14336x4096 : S_.BroadcastsInDim S14336x4096 (![] : Fin 0 → Fin S14336x4096.rank)
  bcast_S14336x4096_S14336x4096x1_0_1 : S14336x4096.BroadcastsInDim S14336x4096x1 (![0, 1] : Fin 2 → Fin S14336x4096x1.rank)
  shapeCasts_S14336x4096_S14336x64x64 : S14336x4096.ShapeCasts S14336x64x64
  bcast_S14336x64_S14336x64x1_0_1 : S14336x64.BroadcastsInDim S14336x64x1 (![0, 1] : Fin 2 → Fin S14336x64x1.rank)
  bcast_S14336x64x1_S14336x64x64_0_1_2 : S14336x64x1.BroadcastsInDim S14336x64x64 (![0, 1, 2] : Fin 3 → Fin S14336x64x64.rank)
  shapeCasts_S14336x64x64_S14336x4096 : S14336x64x64.ShapeCasts S14336x4096
  transposes_S14336x4096_S4096x14336_1_0 : S14336x4096.Transposes [1, 0] S4096x14336
  transposes_S16x4096_S4096x16_1_0 : S16x4096.Transposes [1, 0] S4096x16
  transposes_S14336x16_S16x14336_1_0 : S14336x16.Transposes [1, 0] S16x14336
  bcast_S_S64x14336 : S_.BroadcastsInDim S64x14336 (![] : Fin 0 → Fin S64x14336.rank)
  gather_S16_S14336x4096x1_S14336x4096_n_0_n_n_0_2_1_wf : GatherDims.WF S16 S14336x4096x1 S14336x4096 [] [0] [] [0] [] 2 ![1]
  dot_S64x4096_S4096x14336_S64x14336_1_0_0_1_n_n_wf : DotDims.WF S64x4096 S4096x14336 S64x14336 [1] [0] [0] [1] [] []
  dot_S64x4096_S4096x16_S64x16_1_0_0_1_n_n_wf : DotDims.WF S64x4096 S4096x16 S64x16 [1] [0] [0] [1] [] []
  dot_S64x16_S16x14336_S64x14336_1_0_0_1_n_n_wf : DotDims.WF S64x16 S16x14336 S64x14336 [1] [0] [0] [1] [] []

variable [Facts₀]

def gather_S16_S14336x4096x1_S14336x4096_n_0_n_n_0_2_1 : GatherDims S16 S14336x4096x1 S14336x4096 where
  offsetDims := []
  collapsedSliceDims := [0]
  operandBatchingDims := []
  startIndicesBatchingDims := []
  startIndexMap := [0]
  indexVectorDim := 2
  sliceSizes := ![1]
  wf := gather_S16_S14336x4096x1_S14336x4096_n_0_n_n_0_2_1_wf
def dot_S64x4096_S4096x14336_S64x14336_1_0_0_1_n_n : DotDims S64x4096 S4096x14336 S64x14336 where
  lhsContracting := [1]
  rhsContracting := [0]
  lhsNonContracting := [0]
  rhsNonContracting := [1]
  lhsBatch := []
  rhsBatch := []
  wf := dot_S64x4096_S4096x14336_S64x14336_1_0_0_1_n_n_wf
def dot_S64x4096_S4096x16_S64x16_1_0_0_1_n_n : DotDims S64x4096 S4096x16 S64x16 where
  lhsContracting := [1]
  rhsContracting := [0]
  lhsNonContracting := [0]
  rhsNonContracting := [1]
  lhsBatch := []
  rhsBatch := []
  wf := dot_S64x4096_S4096x16_S64x16_1_0_0_1_n_n_wf
def dot_S64x16_S16x14336_S64x14336_1_0_0_1_n_n : DotDims S64x16 S16x14336 S64x14336 where
  lhsContracting := [1]
  rhsContracting := [0]
  lhsNonContracting := [0]
  rhsNonContracting := [1]
  lhsBatch := []
  rhsBatch := []
  wf := dot_S64x16_S16x14336_S64x14336_1_0_0_1_n_n_wf

class Facts : Prop extends Facts₀ where

variable [Facts]
-- ==== Proof.LibDotNT.lean ====
/-
  A matrix product against a transposed right operand, read at an index, at the ideal values.

  For dimension numbers that contract the left operand's axis 1 with the right operand's axis 1 and keep the
  left's axis 0 and the right's axis 0, with no batch axis — an `M × K` by `N × K` product, `l · rᵀ` —, the result
  at `(a, b)` is `∑ k, l (a, k) · r (b, k)` over `k : Fin K`: for the kernel's matrix unit accumulating into a zero
  vector and for the host's `dot_general` alike. The library states both as a sum over the contraction shape's
  indices at the operand indices `lhsIdx` / `rhsIdx`; here those are read off, coordinate by coordinate, and the
  sum is re-indexed by the contraction shape's one coordinate.
-/
import Idealize.ShloMosaic.PureOps.Ideal.Laws
import Idealize.ShloMosaic.Lib.ValueIdx

noncomputable section

namespace Cert.LibDotNT

open Idealize.ShloMosaic Idealize.ShloMosaic.ValueIdx

variable {M K N : Nat} (D : DotDims ⟨2, ![M, K]⟩ ⟨2, ![N, K]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the result's column. -/
theorem rhs_row (hlb : D.lhsBatch = []) (hrb : D.rhsBatch = []) (hln : D.lhsNonContracting = [0]) (hrn : D.rhsNonContracting = [0])
    (j : (⟨2, ![M, N]⟩ : Shape).Idx) (k : D.contr.Idx) :
    (D.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column is the contraction coordinate. -/
theorem rhs_col (hrc : D.rhsContracting = [1]) (j : (⟨2, ![M, N]⟩ : Shape).Idx) (k : D.contr.Idx) :
    (D.rhsIdx j k 1).val = (k ⟨0, by rw [D.rank_contr, ← D.length_contracting, hrc]; exact Nat.one_pos⟩).val :=
  D.rhsIdx_val_of_single hrc j k

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and row `b` of the right. -/
theorem sum_nt (hlc : D.lhsContracting = [1]) (hrc : D.rhsContracting = [1]) (hln : D.lhsNonContracting = [0])
    (hrn : D.rhsNonContracting = [0]) (hlb : D.lhsBatch = []) (hrb : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 b k := by
    funext x; refine Fin.ext ?_
    match x with
    | ⟨0, _⟩ => exact rhs_row D hlb hrb hln hrn _ _
    | ⟨1, _⟩ => exact (rhs_col D hrc _ _).trans hk
  rw [e1, e2]

/-- The kernel's matrix product into a zero accumulator, read at `(a, b)`. -/
theorem matmul_nt_apply {φ₁ φ₂ : FTy} (hlc : D.lhsContracting = [1]) (hrc : D.rhsContracting = [1]) (hln : D.lhsNonContracting = [0])
    (hrn : D.rhsNonContracting = [0]) (hlb : D.lhsBatch = []) (hrb : D.rhsBatch = []) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  show FloatOps.matmul D prec l r (constant ⟨2, ![M, N]⟩ .f32 0x00000000#32) (ix2 a b) = _
  rw [Ideal.matmul_constant_zero_apply]
  exact sum_nt D hlc hrc hln hrn hlb hrb l r a b

/-- The host's product read at `(a, b)`. -/
theorem dotGeneral_nt_apply {φ₁ φ₂ : FTy} (hlc : D.lhsContracting = [1]) (hrc : D.rhsContracting = [1]) (hln : D.lhsNonContracting = [0])
    (hrn : D.rhsNonContracting = [0]) (hlb : D.lhsBatch = []) (hrb : D.rhsBatch = []) (prec : Option ContractPrecision)
    (l : FVec Ideal ⟨2, ![M, K]⟩ φ₁) (r : FVec Ideal ⟨2, ![N, K]⟩ φ₂) (a : Fin M) (b : Fin N) :
    Host.dotGeneral D prec l r (ix2 a b) = ∑ k : Fin K, l (ix2 a k) * r (ix2 b k) := by
  show FloatOps.dotGeneral D prec .single l r (ix2 a b) = _
  rw [Ideal.dotGeneral_apply]
  exact sum_nt D hlc hrc hln hrn hlb hrb l r a b

end Cert.LibDotNT

end
-- ==== Proof.Spec.lean ====
/-
  What both programs compute, as one function of the five argument arrays.

  A weight is a table entry scaled by its block's scale: entry `(o, k)` of the weight matrix is
  `level (codes (o, k)) · absmax (o, k / 64)`, sixty-four consecutive columns sharing one scale. The result at
  `(p, o)` is the base product `∑ k, x (p, k) · weight (o, k)` plus twice the low-rank correction
  `∑ r, (∑ k, x (p, k) · A (r, k)) · B (o, r)`.

  The table has sixteen entries. `level` reads it at the word's value modulo sixteen; `levelRef` reads it the
  way an indexing gather does, a negative word first moved up by sixteen and the start index then clamped into the
  table. On words in `[0, 16)` the two agree.
-/
import Idealize.ShloMosaic.PureOps.Ideal
import Idealize.ShloMosaic.Lib.ValueIdx

noncomputable section

namespace Cert.Spec

open Idealize.ShloMosaic Idealize.ShloMosaic.ValueIdx

abbrev SX : Shape := ⟨2, ![64, 4096]⟩
abbrev SC : Shape := ⟨2, ![14336, 4096]⟩
abbrev SAm : Shape := ⟨2, ![14336, 64]⟩
abbrev SLa : Shape := ⟨2, ![16, 4096]⟩
abbrev SLb : Shape := ⟨2, ![14336, 16]⟩
abbrev SO : Shape := ⟨2, ![64, 14336]⟩

/-- The sixteen table entries' bit patterns, in table order. -/
abbrev word : Fin 16 → BitVec 32 := fun
  | 0 => 0xBF800000#32 | 1 => 0xBF3239B1#32 | 2 => 0xBF066B30#32 | 3 => 0xBECA32A0#32 | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32 | 12 => 0x3EE1A4B8#32 | 13 => 0x3F1007AB#32 | 14 => 0x3F3913B3#32 | 15 => 0x3F800000#32
  | _ => 0#32

/-- The table entry a code word selects: the entry at the word's value modulo sixteen. -/
def level (c : BitVec 32) : EReal := FloatOps.ofBits (F := Ideal) .f32 (word ⟨c.toNat % 16, Nat.mod_lt _ (by decide)⟩)

/-- A negative index counts from the table's end. -/
def wrap (c : BitVec 32) : BitVec 32 := Scalar.select (IntOp.cmpi .slt c 0#32) (IntOp.addi c 16#32) c

/-- The table entry an indexing gather selects: the index wrapped, read signed, clamped into the table. -/
def levelRef (c : BitVec 32) : EReal :=
  FloatOps.ofBits (F := Ideal) .f32 (word ⟨min (wrap c).toInt.toNat (16 - 1), by omega⟩)

/-- On a word in `[0, 16)` the gather reads the entry at the word's value. -/
theorem levelRef_eq_level (c : BitVec 32) (h : c.toNat < 16) : levelRef c = level c := by
  obtain ⟨n, hn, rfl⟩ : ∃ n, n < 16 ∧ c = BitVec.ofNat 32 n :=
    ⟨c.toNat, h, BitVec.eq_of_toNat_eq (by rw [BitVec.toNat_ofNat]; exact (Nat.mod_eq_of_lt c.isLt).symm)⟩
  unfold levelRef level wrap
  interval_cases n <;> rfl

/-- The scaling of the low-rank correction. -/
def two : EReal := FloatOps.ofBits (F := Ideal) .f32 0x40000000#32

variable (lv : BitVec 32 → EReal)

/-- Entry `(o, k)` of the weight matrix: the selected table entry times the scale of the block of sixty-four
    columns that holds column `k`. -/
def weight (codes : IVec SC 32) (am : FVec Ideal SAm .f32) (o : Fin 14336) (k : Fin 4096) : EReal :=
  lv (codes (ix2 o k)) * am (ix2 o (⟨k.val / 64, by omega⟩ : Fin 64))

/-- The result at row `p`, column `o`. -/
def resultAt (x : FVec Ideal SX .f32) (codes : IVec SC 32) (am : FVec Ideal SAm .f32) (A : FVec Ideal SLa .f32)
    (B : FVec Ideal SLb .f32) (p : Fin 64) (o : Fin 14336) : EReal :=
  (∑ k : Fin 4096, x (ix2 p k) * weight lv codes am o k)
    + (∑ r : Fin 16, (∑ k : Fin 4096, x (ix2 p k) * A (ix2 r k)) * B (ix2 o r)) * two

/-- The result array. -/
def result (x : FVec Ideal SX .f32) (codes : IVec SC 32) (am : FVec Ideal SAm .f32) (A : FVec Ideal SLa .f32)
    (B : FVec Ideal SLb .f32) : FVec Ideal SO .f32 :=
  fun i => resultAt lv x codes am A B ⟨(i 0).val, idx2_lt0 i⟩ ⟨(i 1).val, idx2_lt1 i⟩

theorem result_ix2 (x : FVec Ideal SX .f32) (codes : IVec SC 32) (am : FVec Ideal SAm .f32) (A : FVec Ideal SLa .f32)
    (B : FVec Ideal SLb .f32) (p : Fin 64) (o : Fin 14336) :
    result lv x codes am A B (ix2 p o) = resultAt lv x codes am A B p o := rfl

/-- With every code word in `[0, 16)` the gather's reading of the table gives the same result array. -/
theorem result_levelRef (x : FVec Ideal SX .f32) (codes : IVec SC 32) (am : FVec Ideal SAm .f32) (A : FVec Ideal SLa .f32)
    (B : FVec Ideal SLb .f32) (hc : ∀ i, (codes i).toNat < 16) :
    result levelRef x codes am A B = result level x codes am A B := by
  funext i
  unfold result resultAt weight
  simp only [levelRef_eq_level _ (hc _)]

end Cert.Spec

end
-- ==== Proof.KPure.lean ====
/-
  Two facts about one block of the weight matrix, stated without any program.

  The kernel never indexes the sixteen-entry table: it tests the four low bits of a code word and chooses among
  the sixteen entries by a balanced tree of fifteen two-way choices, bit 0 at the leaves and bit 3 at the root.
  On a word in `[0, 16)` the tree's choice is the table entry at the word's value.

  The kernel repeats each of a row's sixty-four scales sixty-four times along the row by a cast to a trailing unit
  axis, a broadcast along that axis and a cast back to a matrix; row-major order makes column `k` of the result read
  scale `k / 64`.
-/
import Idealize.ShloMosaic.PureOps.Ideal
import Idealize.ShloMosaic.Lib.ValueIdx
import Idealize.ShloMosaic.Lib.Pipeline.Value
import proofs.«410158_j45621142618735_3_alg».proof.Proof.Spec

noncomputable section

namespace Cert.KPure

open Idealize.ShloMosaic Idealize.ShloMosaic.ValueIdx

/-- Bit `b` of a code word as a one-bit truth value: the word masked by `2^b` is not zero. -/
abbrev bit (c : BitVec 32) (mask : BitVec 32) : BitVec 1 := IntOp.cmpi .ne (IntOp.andi c mask) 0#32

/-- A table entry by its bit pattern. -/
abbrev ent (w : BitVec 32) : EReal := Scalar.ofBits (F := Ideal) .f32 w

/-- The tree of two-way choices on one code word. -/
def pick (c : BitVec 32) : EReal :=
  Scalar.select (bit c 8#32)
    (Scalar.select (bit c 4#32)
      (Scalar.select (bit c 2#32)
        (Scalar.select (bit c 1#32) (ent 0x3F800000#32) (ent 0x3F3913B3#32))
        (Scalar.select (bit c 1#32) (ent 0x3F1007AB#32) (ent 0x3EE1A4B8#32)))
      (Scalar.select (bit c 2#32)
        (Scalar.select (bit c 1#32) (ent 0x3EAD033A#32) (ent 0x3E7C04DD#32))
        (Scalar.select (bit c 1#32) (ent 0x3E24CAE3#32) (ent 0x3DA2FAFF#32))))
    (Scalar.select (bit c 4#32)
      (Scalar.select (bit c 2#32)
        (Scalar.select (bit c 1#32) (ent 0x00000000#32) (ent 0xBDBA7871#32))
        (Scalar.select (bit c 1#32) (ent 0xBE3D353F#32) (ent 0xBE91A24D#32)))
      (Scalar.select (bit c 2#32)
        (Scalar.select (bit c 1#32) (ent 0xBECA32A0#32) (ent 0xBF066B30#32))
        (Scalar.select (bit c 1#32) (ent 0xBF3239B1#32) (ent 0xBF800000#32))))

/-- On a word in `[0, 16)` the tree chooses the table entry at the word's value. -/
theorem pick_eq_level (c : BitVec 32) (h : c.toNat < 16) : pick c = Cert.Spec.level c := by
  obtain ⟨n, hn, rfl⟩ : ∃ n, n < 16 ∧ c = BitVec.ofNat 32 n :=
    ⟨c.toNat, h, BitVec.eq_of_toNat_eq (by rw [BitVec.toNat_ofNat]; exact (Nat.mod_eq_of_lt c.isLt).symm)⟩
  unfold pick Cert.Spec.level
  interval_cases n <;> rfl

section Expand
variable {α : Type}

/-- Each row's sixty-four scales repeated sixty-four times along the row: column `k` reads scale `k / 64`. -/
theorem expand_apply (am : (⟨2, ![512, 64]⟩ : Shape).Idx → α)
    (h1 : (⟨2, ![512, 64]⟩ : Shape).ShapeCasts ⟨3, ![512, 64, 1]⟩)
    (h2 : (⟨3, ![512, 64, 1]⟩ : Shape).Broadcasts ⟨3, ![512, 64, 64]⟩)
    (h3 : (⟨3, ![512, 64, 64]⟩ : Shape).ShapeCasts ⟨2, ![512, 4096]⟩) (q : Fin 512) (k : Fin 4096) :
    shapeCast ⟨2, ![512, 4096]⟩ (broadcastTo ⟨3, ![512, 64, 64]⟩ (shapeCast ⟨3, ![512, 64, 1]⟩ am h1) h2) h3 (ix2 q k)
      = am (ix2 q (⟨k.val / 64, by omega⟩ : Fin 64)) := by
  refine (shapeCast_apply _ h3 (ix2 q k) (ix3 q (⟨k.val / 64, by omega⟩ : Fin 64) (⟨k.val % 64, by omega⟩ : Fin 64)) ?_).trans ?_
  · rw [Shape.rowMajor_val_three, Shape.rowMajor_val_two]
    show (q.val * 64 + k.val / 64) * 64 + k.val % 64 = q.val * 4096 + k.val
    omega
  refine (broadcastTo_apply _ h2 _ (ix3 q (⟨k.val / 64, by omega⟩ : Fin 64) (⟨0, by omega⟩ : Fin 1)) ?_).trans ?_
  · intro a
    match a with
    | ⟨0, _⟩ => rfl
    | ⟨1, _⟩ => rfl
    | ⟨2, _⟩ => rfl
  refine shapeCast_apply _ h1 _ (ix2 q (⟨k.val / 64, by omega⟩ : Fin 64)) ?_
  rw [Shape.rowMajor_val_three, Shape.rowMajor_val_two]
  show q.val * 64 + k.val / 64 = (q.val * 64 + k.val / 64) * 1 + 0
  omega

end Expand

end Cert.KPure

end
-- ==== Proof.KAlgebra.lean ====
/-
  The one law that joins the kernel's three-product form of the base term to the single product.

  The kernel splits each factor into a leading part and a remainder and drops the product of the two remainders.
  On the extended reals a change of format is the identity, so the leading part is the factor itself and the
  remainder is `a - a`. For a finite `a` that difference is zero, a product with zero is zero, and the two extra sums
  vanish: `(∑ x·w + ∑ x·(w - w)) + ∑ (x - x)·w = ∑ x·w`. At an infinity `a - a` is not zero, which is why the
  finiteness of the inputs, and of the table's entries, is used here and nowhere else.
-/
import Idealize.ShloMosaic.PureOps.Ideal
import Idealize.ShloMosaic.Lib.ValueIdx
import proofs.«410158_j45621142618735_3_alg».proof.Proof.Spec

noncomputable section

namespace Cert.KAlgebra

open Idealize.ShloMosaic Idealize.ShloMosaic.ValueIdx

/-- A finite extended real minus itself is zero. -/
theorem sub_self_of_real {a : EReal} (h : ∃ r : ℝ, a = (r : EReal)) : a - a = 0 := by
  obtain ⟨r, rfl⟩ := h
  rw [← EReal.coe_sub, sub_self, EReal.coe_zero]

/-- A product of two finite extended reals is finite. -/
theorem mul_real {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- The three-product form collapses to the single product when both factors are finite everywhere. -/
theorem split_sum {K : ℕ} (x w : Fin K → EReal) (hx : ∀ k, ∃ r : ℝ, x k = (r : EReal))
    (hw : ∀ k, ∃ r : ℝ, w k = (r : EReal)) :
    ((∑ k, x k * w k) + (∑ k, x k * (w k - w k))) + (∑ k, (x k - x k) * w k) = ∑ k, x k * w k := by
  have h1 : ∀ k, x k * (w k - w k) = 0 := fun k => by rw [sub_self_of_real (hw k), mul_zero]
  have h2 : ∀ k, (x k - x k) * w k = 0 := fun k => by rw [sub_self_of_real (hx k), zero_mul]
  simp only [h1, h2, Finset.sum_const_zero, add_zero]

/-- A single-precision pattern whose exponent field is not all ones denotes a real number. -/
theorem ofBits_real (w : BitVec 32) (h : (w.extractLsb' 23 8).toNat ≠ 2 ^ 8 - 1) :
    ∃ r : ℝ, Ideal.ofBits .f32 w = (r : EReal) := by
  show ∃ r : ℝ, Ideal.ieee 8 23 w = (r : EReal)
  unfold Ideal.ieee
  simp only []
  rw [if_neg h]
  split_ifs <;> exact ⟨_, rfl⟩

/-- Every table entry is a real number. -/
theorem level_real (c : BitVec 32) : ∃ r : ℝ, Cert.Spec.level c = (r : EReal) := by
  unfold Cert.Spec.level
  generalize (⟨c.toNat % 16, Nat.mod_lt _ (by decide)⟩ : Fin 16) = n
  rw [Ideal.ofBits_def]
  fin_cases n <;> exact ofBits_real _ (by decide)

/-- So every weight is, when the scales are. -/
theorem weight_real (codes : IVec Cert.Spec.SC 32) (am : FVec Ideal Cert.Spec.SAm .f32)
    (ham : ∀ i, ∃ r : ℝ, am i = (r : EReal)) (o : Fin 14336) (k : Fin 4096) :
    ∃ r : ℝ, Cert.Spec.weight Cert.Spec.level codes am o k = (r : EReal) :=
  mul_real (level_real _) (ham _)

end Cert.KAlgebra

end
-- ==== Proof.KBody.lean ====
/-
  What one grid point's body stores, entry by entry.

  The body builds a block of 512 rows of the weight matrix — the tree's choice among the table's entries for
  each code word, times the row's scales repeated along the row — and multiplies: the leading part of `x` against
  the block, the leading part of `x` against the block's own remainder (the block minus itself), the remainder of
  `x` against the block, each product contracting the two operands' column axes; their sum, plus twice the product
  of the precomputed `x · Aᵀ` with the block of `B`. At entry `(p, q)` each product is a sum over the contracted
  column, and the format changes are the identity on the extended reals.

  `point_eq` then reads the point's loaded blocks as what they are blocks OF — rows `512·t + q` of the code,
  scale and `B` arrays, and the three arrays the host prepared — and, for finite `x` and scales and code words in
  `[0, 16)`, collapses the three-product form to the specification's entry.
-/
import proofs.«410158_j45621142618735_3_alg».proof.Proof.Gen.KernelIdeal.Skeleton
import proofs.«410158_j45621142618735_3_alg».proof.Proof.LibDotNT
import proofs.«410158_j45621142618735_3_alg».proof.Proof.KPure
import proofs.«410158_j45621142618735_3_alg».proof.Proof.KAlgebra
import Idealize.ShloMosaic.Lib.Pipeline.Value

noncomputable section

namespace Cert.KernelIdeal.KBody

open Cert.KernelIdeal Cert.KernelIdeal.Gen Idealize.ShloMosaic Idealize.ShloMosaic.ValueIdx

/-- Entry `(q, k)` of the block of weights the body builds from a block of code words and a block of scales. -/
def wq (c : Vec Ideal S512x4096 .i32) (am : Vec Ideal S512x64 .f32) (q : Fin 512) (k : Fin 4096) : EReal :=
  Cert.KPure.pick (c (ix2 q k)) * am (ix2 q (⟨k.val / 64, by omega⟩ : Fin 64))

/-- The body's stored value at `(p, q)`, as sums over the contracted columns. -/
theorem pay_apply (c : Vec Ideal S512x4096 .i32) (am : Vec Ideal S512x64 .f32) (xh xl : Vec Ideal S64x4096 .bf16)
    (xa : Vec Ideal S64x16 .f32) (lb : Vec Ideal S512x16 .f32) (p : Fin 64) (q : Fin 512) :
    k0_pay11 (F := Ideal) (k0_pay1 c) (k0_pay2 c) (k0_pay3 c) (k0_pay4 c) (k0_pay5 c) (k0_pay6 c) (k0_pay7 c) (k0_pay8 c)
        (k0_pay9 c) (k0_pay10 c) (Scalar.ofBits .f32 0x3F1007AB#32) (Scalar.ofBits .f32 0x3EE1A4B8#32) am xh xl xa lb (ix2 p q)
      = (((∑ k : Fin 4096, xh (ix2 p k) * wq c am q k) + ∑ k : Fin 4096, xh (ix2 p k) * (wq c am q k - wq c am q k))
          + ∑ k : Fin 4096, xl (ix2 p k) * wq c am q k)
        + (∑ r : Fin 16, xa (ix2 p r) * lb (ix2 q r)) * Cert.Spec.two := by
  unfold k0_pay11
  simp only [addf_apply, mulf_apply, broadcast_apply]
  rw [Cert.LibDotNT.matmul_nt_apply dot_S64x4096_S512x4096_S64x512_1_1_0_0_n_n rfl rfl rfl rfl rfl rfl,
    Cert.LibDotNT.matmul_nt_apply dot_S64x4096_S512x4096_S64x512_1_1_0_0_n_n rfl rfl rfl rfl rfl rfl,
    Cert.LibDotNT.matmul_nt_apply dot_S64x4096_S512x4096_S64x512_1_1_0_0_n_n rfl rfl rfl rfl rfl rfl,
    Cert.LibDotNT.matmul_nt_apply dot_S64x16_S512x16_S64x512_1_1_0_0_n_n rfl rfl rfl rfl rfl rfl]
  simp only [truncf_apply, subf_apply, mulf_apply, shapeCast_self, Cert.KPure.expand_apply]
  rfl

/-- One grid point's stored entry is the specification's entry: the point is `t`, its blocks are rows
    `512·t + q` of the code, scale and `B` arrays, and the host's three arrays are `x`, `x - x` and `x · Aᵀ`. -/
theorem point_eq (x : FVec Ideal Cert.Spec.SX .f32) (codes : IVec Cert.Spec.SC 32) (am : FVec Ideal Cert.Spec.SAm .f32)
    (A : FVec Ideal Cert.Spec.SLa .f32) (B : FVec Ideal Cert.Spec.SLb .f32)
    (hx : ∀ i, ∃ r : ℝ, x i = (r : EReal)) (ham : ∀ i, ∃ r : ℝ, am i = (r : EReal)) (hc : ∀ i, (codes i).toNat < 16)
    (cb : Vec Ideal S512x4096 .i32) (amb : Vec Ideal S512x64 .f32) (xh xl : Vec Ideal S64x4096 .bf16)
    (xab : Vec Ideal S64x16 .f32) (lbb : Vec Ideal S512x16 .f32) (t : ℕ) (ht : t < 28)
    (hcb : ∀ (q : Fin 512) (k : Fin 4096), cb (ix2 q k) = codes (ix2 (⟨512 * t + q.val, by omega⟩ : Fin 14336) k))
    (hamb : ∀ (q : Fin 512) (j : Fin 64), amb (ix2 q j) = am (ix2 (⟨512 * t + q.val, by omega⟩ : Fin 14336) j))
    (hxh : ∀ (p : Fin 64) (k : Fin 4096), xh (ix2 p k) = x (ix2 p k))
    (hxl : ∀ (p : Fin 64) (k : Fin 4096), xl (ix2 p k) = x (ix2 p k) - x (ix2 p k))
    (hxa : ∀ (p : Fin 64) (r : Fin 16), xab (ix2 p r) = ∑ k : Fin 4096, x (ix2 p k) * A (ix2 r k))
    (hlb : ∀ (q : Fin 512) (r : Fin 16), lbb (ix2 q r) = B (ix2 (⟨512 * t + q.val, by omega⟩ : Fin 14336) r))
    (p : Fin 64) (q : Fin 512) :
    k0_pay11 (F := Ideal) (k0_pay1 cb) (k0_pay2 cb) (k0_pay3 cb) (k0_pay4 cb) (k0_pay5 cb) (k0_pay6 cb) (k0_pay7 cb) (k0_pay8 cb)
        (k0_pay9 cb) (k0_pay10 cb) (Scalar.ofBits .f32 0x3F1007AB#32) (Scalar.ofBits .f32 0x3EE1A4B8#32) amb xh xl xab lbb (ix2 p q)
      = Cert.Spec.resultAt Cert.Spec.level x codes am A B p (⟨512 * t + q.val, by omega⟩ : Fin 14336) := by
  rw [pay_apply]
  have hw : ∀ k : Fin 4096, wq cb amb q k
      = Cert.Spec.weight Cert.Spec.level codes am (⟨512 * t + q.val, by omega⟩ : Fin 14336) k := fun k => by
    unfold wq Cert.Spec.weight
    rw [hcb, hamb, Cert.KPure.pick_eq_level _ (hc _)]
  simp only [hw, hxh, hxl, hxa, hlb]
  unfold Cert.Spec.resultAt
  rw [Cert.KAlgebra.split_sum (fun k => x (ix2 p k))
    (fun k => Cert.Spec.weight Cert.Spec.level codes am (⟨512 * t + q.val, by omega⟩ : Fin 14336) k)
    (fun k => hx _) (fun k => Cert.KAlgebra.weight_real codes am ham _ k)]

end Cert.KernelIdeal.KBody

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.KHost.lean ====
/-
  What the region finds in the three arrays the host computes before it.

  Before the kernel runs, the host transposes `A` and multiplies `x` by it, and splits `x` into a leading part,
  `x` narrowed, and a remainder, `x` minus the leading part widened again, narrowed. On the extended reals
  narrowing and widening are the identity: the leading part is `x`, the remainder is `x - x` entry by entry, and
  the product's entry `(p, r)` is `∑ k, x (p, k) · A (r, k)`.
-/
import proofs.«410158_j45621142618735_3_alg».proof.Proof.Gen.KernelIdeal.Frame
import proofs.«410158_j45621142618735_3_alg».proof.Proof.LibDot
import Idealize.ShloMosaic.Lib.StableHlo.Run
import Idealize.ShloMosaic.Lib.ValueLayout

noncomputable section

namespace Cert.KernelIdeal.KHost

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The argument `x` on core `c`. -/
abbrev xArr (c : Dev nD) : FVec Ideal S64x4096 .f32 := m ((c : Thread nD τ).loc main_arg0)
/-- The argument `A` on core `c`. -/
abbrev aArr (c : Dev nD) : FVec Ideal S16x4096 .f32 := m ((c : Thread nD τ).loc main_arg3)

/-- The leading part of `x` is `x`. -/
theorem hi_apply (c : Dev nD) (i : S64x4096.Idx) :
    (V m c main_v2 : S64x4096.Idx → EReal) i = xArr m c i := by
  have e : (V m c main_v2 : S64x4096.Idx → EReal) = truncf .bf16 (xArr m c) bitsLt_bf16_f32 := by
    dsimp only [Gen.V, Gen.hostOps0]; after_results
  rw [e]; rfl

/-- The remainder of `x` is `x - x`. -/
theorem lo_apply (c : Dev nD) (i : S64x4096.Idx) :
    (V m c main_v5 : S64x4096.Idx → EReal) i = xArr m c i - xArr m c i := by
  have e : (V m c main_v5 : S64x4096.Idx → EReal)
      = truncf .bf16 (subf (xArr m c) (extf .f32 (truncf .bf16 (xArr m c) bitsLt_bf16_f32) bitsLt_bf16_f32)) bitsLt_bf16_f32 := by
    dsimp only [Gen.V, Gen.hostOps0]; after_results
  rw [e]; rfl

/-- Entry `(p, r)` of the product of `x` with `A` transposed. -/
theorem xa_apply (c : Dev nD) (p : Fin 64) (r : Fin 16) :
    (V m c main_v1 : S64x16.Idx → EReal) (ix2 p r) = ∑ k : Fin 4096, xArr m c (ix2 p k) * aArr m c (ix2 r k) := by
  have e : (V m c main_v1 : S64x16.Idx → EReal)
      = Host.dotGeneral dot_S64x4096_S4096x16_S64x16_1_0_0_1_n_n (some .fp32) (xArr m c)
          (transpose S4096x16 [1, 0] (aArr m c) transposes_S16x4096_S4096x16_1_0) := by
    dsimp only [Gen.V, Gen.hostOps0]; after_results
  rw [e, Cert.LibDot.dotGeneral_plain_apply dot_S64x4096_S4096x16_S64x16_1_0_0_1_n_n rfl rfl rfl rfl rfl rfl]
  show ∑ k : Fin 4096, xArr m c (ix2 p k)
        * transpose S4096x16 [1, 0] (aArr m c) transposes_S16x4096_S4096x16_1_0 (ix2 k r)
      = ∑ k : Fin 4096, xArr m c (ix2 p k) * aArr m c (ix2 r k)
  refine Finset.sum_congr rfl fun k _ => ?_
  rw [transpose_ix2_apply (aArr m c) transposes_S16x4096_S4096x16_1_0 k r]

end Cert.KernelIdeal.KHost

end
-- ==== Proof.KBlocks.lean ====
/-
  From what each grid point writes back to the whole result array.

  Point `t` of the 28 reads rows `512·t … 512·t + 511` of the code, scale and `B` arrays and the whole of the three
  arrays the host prepared, and writes back columns `512·t … 512·t + 511` of the result. Entry `(p, q)` of what it
  writes back is the specification's entry `(p, 512·t + q)`. Every column of the result lies in exactly one such
  block, `t = column / 512`, so after the last point the array is the specification.
-/
import proofs.«410158_j45621142618735_3_alg».proof.Proof.Gen.KernelIdeal.Value
import proofs.«410158_j45621142618735_3_alg».proof.Proof.KBody
import proofs.«410158_j45621142618735_3_alg».proof.Proof.KHost
import Idealize.ShloMosaic.Lib.Pipeline.Value

noncomputable section

namespace Cert.KernelIdeal.KBlocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The five arguments on core `c`. -/
abbrev xA (c : Dev nD) : FVec Ideal S64x4096 .f32 := m ((c : Thread nD τ).loc main_arg0)
abbrev cA (c : Dev nD) : IVec S14336x4096 32 := m ((c : Thread nD τ).loc main_arg1)
abbrev sA (c : Dev nD) : FVec Ideal S14336x64 .f32 := m ((c : Thread nD τ).loc main_arg2)
abbrev aA (c : Dev nD) : FVec Ideal S16x4096 .f32 := m ((c : Thread nD τ).loc main_arg3)
abbrev bA (c : Dev nD) : FVec Ideal S14336x16 .f32 := m ((c : Thread nD τ).loc main_arg4)

/-- The specification of the five arguments. -/
abbrev G (c : Dev nD) : FVec Ideal S64x14336 .f32 :=
  Cert.Spec.result Cert.Spec.level (xA m c) (cA m c) (sA m c) (aA m c) (bA m c)

/-- The printed index maps, decided over the grid: the three whole-array windows stay at block `(0, 0)`, the three
    row-blocked windows are at row block `t`, the result window at column block `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = t.val :=
  (by decide +kernel : ∀ t : Fin grid0.N, _)

theorem t_lt (t : Fin cfg0.N) : t.val < 28 := by
  have h1 := t.isLt
  have h2 : cfg0.N = 28 := N_0
  omega

/-! ## Each input block as rows of its array -/

/-- The leading part of `x`, whole at every point. -/
theorem blk0_apply (c : Dev nD) (t : Fin cfg0.N) (p : Fin 64) (k : Fin 4096) :
    (iblk m c 0 t : Vec Ideal S64x4096 .bf16) (ix2 p k) = xA m c (ix2 p k) := by
  obtain ⟨e0, e1, -⟩ := idx_facts t
  unfold iblk
  rw [View.read_apply]
  show (V m c main_v2 : S64x4096.Idx → EReal) _ = _
  rw [Cert.KernelIdeal.KHost.hi_apply]
  refine congrArg (xA m c) (funext fun a => Fin.ext ?_)
  match a with
  | ⟨0, _⟩ => show win0_0.index t (0 : Fin 2) * 64 + 1 * p.val = p.val; omega
  | ⟨1, _⟩ => show win0_0.index t (1 : Fin 2) * 4096 + 1 * k.val = k.val; omega

/-- The remainder of `x`, whole at every point. -/
theorem blk1_apply (c : Dev nD) (t : Fin cfg0.N) (p : Fin 64) (k : Fin 4096) :
    (iblk m c 1 t : Vec Ideal S64x4096 .bf16) (ix2 p k) = xA m c (ix2 p k) - xA m c (ix2 p k) := by
  obtain ⟨-, -, e0, e1, -⟩ := idx_facts t
  unfold iblk
  rw [View.read_apply]
  show (V m c main_v5 : S64x4096.Idx → EReal) _ = _
  rw [Cert.KernelIdeal.KHost.lo_apply]
  have e : (((cfg0.win 1).blk t).view.emb (ix2 p k) : S64x4096.Idx) = ix2 p k := by
    funext a; refine Fin.ext ?_
    match a with
    | ⟨0, _⟩ => show win0_1.index t (0 : Fin 2) * 64 + 1 * p.val = p.val; omega
    | ⟨1, _⟩ => show win0_1.index t (1 : Fin 2) * 4096 + 1 * k.val = k.val; omega
  rw [e]

/-- Rows `512·t + q` of the code words. -/
theorem blk2_apply (c : Dev nD) (t : Fin cfg0.N) (q : Fin 512) (k : Fin 4096) :
    (iblk m c 2 t : Vec Ideal S512x4096 .i32) (ix2 q k)
      = cA m c (ix2 (⟨512 * t.val + q.val, by have := t_lt t; omega⟩ : Fin 14336) k) := by
  obtain ⟨-, -, -, -, e0, e1, -⟩ := idx_facts t
  unfold iblk
  rw [View.read_apply]
  show (V m c main_arg1 : S14336x4096.Idx → BitVec 32) _ = _
  rw [V_main_arg1]
  refine congrArg (cA m c) (funext fun a => Fin.ext ?_)
  match a with
  | ⟨0, _⟩ => show win0_2.index t (0 : Fin 2) * 512 + 1 * q.val = 512 * t.val + q.val; omega
  | ⟨1, _⟩ => show win0_2.index t (1 : Fin 2) * 4096 + 1 * k.val = k.val; omega

/-- Rows `512·t + q` of the scales. -/
theorem blk3_apply (c : Dev nD) (t : Fin cfg0.N) (q : Fin 512) (j : Fin 64) :
    (iblk m c 3 t : Vec Ideal S512x64 .f32) (ix2 q j)
      = sA m c (ix2 (⟨512 * t.val + q.val, by have := t_lt t; omega⟩ : Fin 14336) j) := by
  obtain ⟨-, -, -, -, -, -, e0, e1, -⟩ := idx_facts t
  unfold iblk
  rw [View.read_apply]
  show (V m c main_arg2 : S14336x64.Idx → EReal) _ = _
  rw [V_main_arg2]
  refine congrArg (sA m c) (funext fun a => Fin.ext ?_)
  match a with
  | ⟨0, _⟩ => show win0_3.index t (0 : Fin 2) * 512 + 1 * q.val = 512 * t.val + q.val; omega
  | ⟨1, _⟩ => show win0_3.index t (1 : Fin 2) * 64 + 1 * j.val = j.val; omega

/-- The product `x · Aᵀ`, whole at every point. -/
theorem blk4_apply (c : Dev nD) (t : Fin cfg0.N) (p : Fin 64) (r : Fin 16) :
    (iblk m c 4 t : Vec Ideal S64x16 .f32) (ix2 p r) = ∑ k : Fin 4096, xA m c (ix2 p k) * aA m c (ix2 r k) := by
  obtain ⟨-, -, -, -, -, -, -, -, e0, e1, -⟩ := idx_facts t
  unfold iblk
  rw [View.read_apply]
  show (V m c main_v1 : S64x16.Idx → EReal) _ = _
  have e : (((cfg0.win 4).blk t).view.emb (ix2 p r) : S64x16.Idx) = ix2 p r := by
    funext a; refine Fin.ext ?_
    match a with
    | ⟨0, _⟩ => show win0_4.index t (0 : Fin 2) * 64 + 1 * p.val = p.val; omega
    | ⟨1, _⟩ => show win0_4.index t (1 : Fin 2) * 16 + 1 * r.val = r.val; omega
  rw [e, Cert.KernelIdeal.KHost.xa_apply]

/-- Rows `512·t + q` of `B`. -/
theorem blk5_apply (c : Dev nD) (t : Fin cfg0.N) (q : Fin 512) (r : Fin 16) :
    (iblk m c 5 t : Vec Ideal S512x16 .f32) (ix2 q r)
      = bA m c (ix2 (⟨512 * t.val + q.val, by have := t_lt t; omega⟩ : Fin 14336) r) := by
  obtain ⟨-, -, -, -, -, -, -, -, -, -, e0, e1, -⟩ := idx_facts t
  unfold iblk
  rw [View.read_apply]
  show (V m c main_arg4 : S14336x16.Idx → EReal) _ = _
  rw [V_main_arg4]
  refine congrArg (bA m c) (funext fun a => Fin.ext ?_)
  match a with
  | ⟨0, _⟩ => show win0_5.index t (0 : Fin 2) * 512 + 1 * q.val = 512 * t.val + q.val; omega
  | ⟨1, _⟩ => show win0_5.index t (1 : Fin 2) * 16 + 1 * r.val = r.val; omega

/-! ## What a point writes back, and the array after the run -/

section
variable (c : Dev nD) (hx : ∀ i, ∃ r : ℝ, xA m c i = (r : EReal)) (hs : ∀ i, ∃ r : ℝ, sA m c i = (r : EReal))
  (hc : ∀ i, (cA m c i).toNat < 16)
include hx hs hc

/-- WHAT POINT `t` WRITES BACK is block `t` of the specification. -/
theorem flushed_eq (t : Fin cfg0.N) :
    (dats m 0 c).flushed 6 t = ((cfg0.win 6).blk t).view.read (Elt Ideal) (G m c) := by
  obtain ⟨-, -, -, -, -, -, -, -, -, -, -, -, e0, e1⟩ := idx_facts t
  have ht := t_lt t
  rw [flushed6]
  unfold out0_6
  rw [View.canon_unit_zero hz]
  simp only [View.ld_unit_zero (S := S512x4096) hz, View.ld_unit_zero (S := S512x64) hz, View.ld_unit_zero (S := S64x4096) hz,
    View.ld_unit_zero (S := S64x16) hz, View.ld_unit_zero (S := S512x16) hz]
  funext j
  have hp : (j 0).val < 64 := (j 0).isLt
  have hq : (j 1).val < 512 := (j 1).isLt
  have e2 : (((cfg0.win 6).blk t).view.emb j : S64x14336.Idx)
      = ix2 (⟨(j 0).val, hp⟩ : Fin 64) (⟨512 * t.val + (j 1).val, by omega⟩ : Fin 14336) := by
    funext a; refine Fin.ext ?_
    match a with
    | ⟨0, _⟩ => show win0_6.index t (0 : Fin 2) * 64 + 1 * (j 0).val = (j 0).val; omega
    | ⟨1, _⟩ => show win0_6.index t (1 : Fin 2) * 512 + 1 * (j 1).val = 512 * t.val + (j 1).val; omega
  have e1' : ((cfg0.win 6).xinj (grid0.coords t) j : S64x512.Idx) = ix2 (⟨(j 0).val, hp⟩ : Fin 64) (⟨(j 1).val, hq⟩ : Fin 512) := by
    funext a
    match a with
    | ⟨0, _⟩ => rfl
    | ⟨1, _⟩ => rfl
  show k0_pay11 (F := Ideal) _ _ _ _ _ _ _ _ _ _ _ _ _ _ _ _ _ ((cfg0.win 6).xinj (grid0.coords t) j)
    = G m c (((cfg0.win 6).blk t).view.emb j)
  rw [e1', e2]
  exact Cert.KernelIdeal.KBody.point_eq (xA m c) (cA m c) (sA m c) (aA m c) (bA m c) hx hs hc
    (iblk m c 2 t) (iblk m c 3 t) (iblk m c 0 t) (iblk m c 1 t) (iblk m c 4 t) (iblk m c 5 t) t.val ht
    (blk2_apply m c t) (blk3_apply m c t) (blk0_apply m c t) (blk1_apply m c t) (blk4_apply m c t) (blk5_apply m c t) _ _

/-- An index of the result is in point `t`'s block iff each coordinate is in the block's range on its axis. -/
theorem mem_blk (t : Fin cfg0.N) (i : S64x14336.Idx) :
    i ∈ ((cfg0.win 6).blk t).view.set ↔ ∀ a : Fin 2, win0_6.index t a * S64x512.size a ≤ (i a).val ∧ (i a).val < win0_6.index t a * S64x512.size a + S64x512.size a := by
  show i ∈ ((View.whole main_v6).slice (win0_6.rect t)).set ↔ _
  rw [View.set_slice_whole, Rect.mem_set_unit]
  exact Iff.rfl

/-- THE ARRAY after the run is the specification: column `o` lies in block `o / 512`. -/
theorem final : (dats m 0 c).arrAt 6 cfg0.N = G m c :=
  (dats m 0 c).arrAt_eq_of_cover 6 (G m c) (fun t _ => flushed_eq m c hx hs hc t) fun i => by
    have h0 : (i 0).val < 64 := (i 0).isLt
    have h1 : (i 1).val < 14336 := (i 1).isLt
    let t : Fin cfg0.N := ⟨(i 1).val / 512, by rw [show cfg0.N = 28 from N_0]; omega⟩
    obtain ⟨-, -, -, -, -, -, -, -, -, -, -, -, e0, e1⟩ := idx_facts t
    have e1' : win0_6.index t (1 : Fin 2) = (i 1).val / 512 := e1
    refine ⟨t, flush0_6 t, ?_⟩
    rw [mem_blk m c hx hs hc]
    intro a
    match a with
    | ⟨0, _⟩ => show win0_6.index t (0 : Fin 2) * 64 ≤ (i 0).val ∧ (i 0).val < win0_6.index t (0 : Fin 2) * 64 + 64; omega
    | ⟨1, _⟩ => show win0_6.index t (1 : Fin 2) * 512 ≤ (i 1).val ∧ (i 1).val < win0_6.index t (1 : Fin 2) * 512 + 512; omega

end

/-! ## The run, read -/

/-- The kernel's run with the result array at the specification: for finite `x` and scales and code words in
    `[0, 16)`, on every core. -/
theorem run (hx : ∀ c i, ∃ r : ℝ, xA m c i = (r : EReal)) (hs : ∀ c i, ∃ r : ℝ, sA m c i = (r : EReal))
    (hc : ∀ c i, (cA m c i).toNat < 16) :
    θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hx c) (hs c) (hc c)), (h c).2⟩)
    (run_blocks m ρ)

end Cert.KernelIdeal.KBlocks

end
-- ==== Proof.RefRun.lean ====
/-
  The reference program's run, written over named stages.

  The reference is twenty-six host operations and no kernel. Listed in order they are a straight line, and a
  straight line's run is the fold of the operations' results over the launch contents. The stages below name what
  the line computes from the five argument arrays: the wrapped code words, the table entries they select, the weight
  matrix (entries scaled block by block, transposed for the product), the base product, the low-rank correction,
  and their sum with the correction doubled.
-/
import proofs.«410158_j45621142618735_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The sixteen-entry table: entry `n` is the float whose bit pattern is the `n`-th literal word. -/
def table : FVec F S16 .f32 := fun i => FloatOps.ofBits .f32 (lit0 (S16.rowMajor i))

/-- The code words with a negative one moved up by sixteen: compare with zero, add sixteen, select. -/
def wrapped (codes : IVec S14336x4096 32) : IVec S14336x4096 32 :=
  select (cmpi .slt codes (broadcastInDim S14336x4096 ![] bcast_S_S14336x4096 (constantI S_ 32 0#32)))
    (addi codes (broadcastInDim S14336x4096 ![] bcast_S_S14336x4096 (constantI S_ 32 16#32))) codes

/-- The table entry each wrapped code word selects. -/
def gathered (codes : IVec S14336x4096 32) : FVec F S14336x4096 .f32 :=
  Host.gather gather_S16_S14336x4096x1_S14336x4096_n_0_n_n_0_2_1 (table (F := F))
    (broadcastInDim S14336x4096x1 ![0, 1] bcast_S14336x4096_S14336x4096x1_0_1 (wrapped codes))

/-- The selected entries in blocks of sixty-four columns, each block times its scale. -/
def scaled (codes : IVec S14336x4096 32) (am : FVec F S14336x64 .f32) : FVec F S14336x64x64 .f32 :=
  mulf (shapeCast S14336x64x64 (gathered (F := F) codes) shapeCasts_S14336x4096_S14336x64x64)
    (broadcastInDim S14336x64x64 ![0, 1, 2] bcast_S14336x64x1_S14336x64x64_0_1_2
      (broadcastInDim S14336x64x1 ![0, 1] bcast_S14336x64_S14336x64x1_0_1 am))

/-- The weight matrix, transposed: rows are the contracted index. -/
def wT (codes : IVec S14336x4096 32) (am : FVec F S14336x64 .f32) : FVec F S4096x14336 .f32 :=
  transpose S4096x14336 [1, 0] (shapeCast S14336x4096 (scaled codes am) shapeCasts_S14336x64x64_S14336x4096)
    transposes_S14336x4096_S4096x14336_1_0

/-- The base product of the activations with the weight matrix. -/
def base (x : FVec F S64x4096 .f32) (codes : IVec S14336x4096 32) (am : FVec F S14336x64 .f32) : FVec F S64x14336 .f32 :=
  Host.dotGeneral dot_S64x4096_S4096x14336_S64x14336_1_0_0_1_n_n none x (wT codes am)

/-- The activations through the first low-rank factor. -/
def xa (x : FVec F S64x4096 .f32) (A : FVec F S16x4096 .f32) : FVec F S64x16 .f32 :=
  Host.dotGeneral dot_S64x4096_S4096x16_S64x16_1_0_0_1_n_n none x
    (transpose S4096x16 [1, 0] A transposes_S16x4096_S4096x16_1_0)

/-- The low-rank correction: through the first factor, then through the second. -/
def lora (x : FVec F S64x4096 .f32) (A : FVec F S16x4096 .f32) (B : FVec F S14336x16 .f32) : FVec F S64x14336 .f32 :=
  Host.dotGeneral dot_S64x16_S16x14336_S64x14336_1_0_0_1_n_n none (xa x A)
    (transpose S16x14336 [1, 0] B transposes_S14336x16_S16x14336_1_0)

/-- The result: the base product plus the correction times the constant two. -/
def out (x : FVec F S64x4096 .f32) (codes : IVec S14336x4096 32) (am : FVec F S14336x64 .f32) (A : FVec F S16x4096 .f32)
    (B : FVec F S14336x16 .f32) : FVec F S64x14336 .f32 :=
  addf (base x codes am)
    (mulf (lora x A B) (broadcastInDim S64x14336 ![] bcast_S_S64x14336 (constant S_ .f32 0x40000000#32)))

/-! ## The operations and their run -/

/-- @main's 26 operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S14336x4096 ![] bcast_S_S14336x4096 : (⟨S_, .i32⟩ : BufTy).Contents (Elt F) → (⟨S14336x4096, .i32⟩ : BufTy).Contents (Elt F)),
    binary main_arg1 main_v0 main_v1 (cmpi .slt : (⟨S14336x4096, .i32⟩ : BufTy).Contents (Elt F) → (⟨S14336x4096, .i32⟩ : BufTy).Contents (Elt F) → (⟨S14336x4096, .i1⟩ : BufTy).Contents (Elt F)),
    nullary main_c_0 (constantI S_ 32 16#32),
    unary main_c_0 main_v2 (broadcastInDim S14336x4096 ![] bcast_S_S14336x4096 : (⟨S_, .i32⟩ : BufTy).Contents (Elt F) → (⟨S14336x4096, .i32⟩ : BufTy).Contents (Elt F)),
    binary main_arg1 main_v2 main_v3 (addi : (⟨S14336x4096, .i32⟩ : BufTy).Contents (Elt F) → (⟨S14336x4096, .i32⟩ : BufTy).Contents (Elt F) → (⟨S14336x4096, .i32⟩ : BufTy).Contents (Elt F)),
    ternary main_v1 main_v3 main_arg1 main_v4 (select : (⟨S14336x4096, .i1⟩ : BufTy).Contents (Elt F) → (⟨S14336x4096, .i32⟩ : BufTy).Contents (Elt F) → (⟨S14336x4096, .i32⟩ : BufTy).Contents (Elt F) → (⟨S14336x4096, .i32⟩ : BufTy).Contents (Elt F)),
    unary main_v4 main_v5 (broadcastInDim S14336x4096x1 ![0, 1] bcast_S14336x4096_S14336x4096x1_0_1 : (⟨S14336x4096, .i32⟩ : BufTy).Contents (Elt F) → (⟨S14336x4096x1, .i32⟩ : BufTy).Contents (Elt F)),
    binary main_cst main_v5 main_v6 ((fun x i => Host.gather gather_S16_S14336x4096x1_S14336x4096_n_0_n_n_0_2_1 x i) : (⟨S16, .f32⟩ : BufTy).Contents (Elt F) → (⟨S14336x4096x1, .i32⟩ : BufTy).Contents (Elt F) → (⟨S14336x4096, .f32⟩ : BufTy).Contents (Elt F)),
    reshape main_v6 main_v7 rfl shapeCasts_S14336x4096_S14336x64x64,
    unary main_arg2 main_v8 (broadcastInDim S14336x64x1 ![0, 1] bcast_S14336x64_S14336x64x1_0_1 : (⟨S14336x64, .f32⟩ : BufTy).Contents (Elt F) → (⟨S14336x64x1, .f32⟩ : BufTy).Contents (Elt F)),
    unary main_v8 main_v9 (broadcastInDim S14336x64x64 ![0, 1, 2] bcast_S14336x64x1_S14336x64x64_0_1_2 : (⟨S14336x64x1, .f32⟩ : BufTy).Contents (Elt F) → (⟨S14336x64x64, .f32⟩ : BufTy).Contents (Elt F)),
    binary main_v7 main_v9 main_v10 (mulf : (⟨S14336x64x64, .f32⟩ : BufTy).Contents (Elt F) → (⟨S14336x64x64, .f32⟩ : BufTy).Contents (Elt F) → (⟨S14336x64x64, .f32⟩ : BufTy).Contents (Elt F)),
    reshape main_v10 main_v11 rfl shapeCasts_S14336x64x64_S14336x4096,
    unary main_v11 main_v12 ((transpose S4096x14336 [1, 0] · transposes_S14336x4096_S4096x14336_1_0) : (⟨S14336x4096, .f32⟩ : BufTy).Contents (Elt F) → (⟨S4096x14336, .f32⟩ : BufTy).Contents (Elt F)),
    binary main_arg0 main_v12 main_v13 ((fun l r => Host.dotGeneral dot_S64x4096_S4096x14336_S64x14336_1_0_0_1_n_n none l r) : (⟨S64x4096, .f32⟩ : BufTy).Contents (Elt F) → (⟨S4096x14336, .f32⟩ : BufTy).Contents (Elt F) → (⟨S64x14336, .f32⟩ : BufTy).Contents (Elt F)),
    unary main_arg3 main_v14 ((transpose S4096x16 [1, 0] · transposes_S16x4096_S4096x16_1_0) : (⟨S16x4096, .f32⟩ : BufTy).Contents (Elt F) → (⟨S4096x16, .f32⟩ : BufTy).Contents (Elt F)),
    binary main_arg0 main_v14 main_v15 ((fun l r => Host.dotGeneral dot_S64x4096_S4096x16_S64x16_1_0_0_1_n_n none l r) : (⟨S64x4096, .f32⟩ : BufTy).Contents (Elt F) → (⟨S4096x16, .f32⟩ : BufTy).Contents (Elt F) → (⟨S64x16, .f32⟩ : BufTy).Contents (Elt F)),
    unary main_arg4 main_v16 ((transpose S16x14336 [1, 0] · transposes_S14336x16_S16x14336_1_0) : (⟨S14336x16, .f32⟩ : BufTy).Contents (Elt F) → (⟨S16x14336, .f32⟩ : BufTy).Contents (Elt F)),
    binary main_v15 main_v16 main_v17 ((fun l r => Host.dotGeneral dot_S64x16_S16x14336_S64x14336_1_0_0_1_n_n none l r) : (⟨S64x16, .f32⟩ : BufTy).Contents (Elt F) → (⟨S16x14336, .f32⟩ : BufTy).Contents (Elt F) → (⟨S64x14336, .f32⟩ : BufTy).Contents (Elt F)),
    nullary main_cst_1 (constant S_ .f32 0x40000000#32),
    unary main_cst_1 main_v18 (broadcastInDim S64x14336 ![] bcast_S_S64x14336 : (⟨S_, .f32⟩ : BufTy).Contents (Elt F) → (⟨S64x14336, .f32⟩ : BufTy).Contents (Elt F)),
    binary main_v17 main_v18 main_v19 (mulf : (⟨S64x14336, .f32⟩ : BufTy).Contents (Elt F) → (⟨S64x14336, .f32⟩ : BufTy).Contents (Elt F) → (⟨S64x14336, .f32⟩ : BufTy).Contents (Elt F)),
    binary main_v13 main_v19 main_v20 (addf : (⟨S64x14336, .f32⟩ : BufTy).Contents (Elt F) → (⟨S64x14336, .f32⟩ : BufTy).Contents (Elt F) → (⟨S64x14336, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
   binary_bufs_sub .., ternary_bufs_sub .., unary_bufs_sub .., binary_bufs_sub .., reshape_bufs_sub .., unary_bufs_sub ..,
   unary_bufs_sub .., binary_bufs_sub .., reshape_bufs_sub .., unary_bufs_sub .., binary_bufs_sub .., unary_bufs_sub ..,
   binary_bufs_sub .., unary_bufs_sub .., binary_bufs_sub .., nullary_bufs_sub .., unary_bufs_sub .., binary_bufs_sub ..,
   binary_bufs_sub ..⟩

/-- What the line leaves in the result buffer: the stages composed, at the launch contents of the five arguments. -/
theorem after_v20 (V : Valuation τ sig (Elt F)) :
    after (ops (F := F)) V (Proc.devRef .tc main_v20)
      = out (V (Proc.devRef .tc main_arg0)) (V (Proc.devRef .tc main_arg1)) (V (Proc.devRef .tc main_arg2))
          (V (Proc.devRef .tc main_arg3)) (V (Proc.devRef .tc main_arg4)) := by
  after_results_simp <;> rfl

/-- No operation of the line writes an argument. -/
theorem after_arg0 (V : Valuation τ sig (Elt F)) :
    after (ops (F := F)) V (Proc.devRef .tc main_arg0) = V (Proc.devRef .tc main_arg0) := by after_results_simp <;> rfl
theorem after_arg1 (V : Valuation τ sig (Elt F)) :
    after (ops (F := F)) V (Proc.devRef .tc main_arg1) = V (Proc.devRef .tc main_arg1) := by after_results_simp <;> rfl
theorem after_arg2 (V : Valuation τ sig (Elt F)) :
    after (ops (F := F)) V (Proc.devRef .tc main_arg2) = V (Proc.devRef .tc main_arg2) := by after_results_simp <;> rfl
theorem after_arg3 (V : Valuation τ sig (Elt F)) :
    after (ops (F := F)) V (Proc.devRef .tc main_arg3) = V (Proc.devRef .tc main_arg3) := by after_results_simp <;> rfl
theorem after_arg4 (V : Valuation τ sig (Elt F)) :
    after (ops (F := F)) V (Proc.devRef .tc main_arg4) = V (Proc.devRef .tc main_arg4) := by after_results_simp <;> rfl

/-- On every device, for any float values, from any memory with zero counters: every weakly fair execution of
    @main terminates with the result buffer at the stages' composed term of the five arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v20).trans (after_v20 _),
      (h c main_arg0).trans (after_arg0 _), (h c main_arg1).trans (after_arg1 _), (h c main_arg2).trans (after_arg2 _),
      (h c main_arg3).trans (after_arg3 _), (h c main_arg4).trans (after_arg4 _)⟩)
    (run_seq scopedRefs_eq scopedSems_eq defs main (fun _ => ops) main_eq (fun _ => ops_sub) m ρ)

end Cert.ReferenceIdeal.RefRun

end
-- ==== Proof.RefValue.lean ====
/-
  The reference program's result is the specification, with the table read the way an indexing gather reads it.

  Every stage of the reference is read at explicit coordinates. The wrap of a code word is the specification's
  `wrap`; the gather reads the table at the wrapped word, read signed and clamped, which is `levelRef`; the two
  reshapes are row-major, so entry `(o, k)` of the flat weight matrix is entry `(o, k / 64, k % 64)` of the blocked
  one and carries the scale at `(o, k / 64)`; a transposed matrix read at `(k, o)` is the matrix at `(o, k)`; each
  host product read at `(a, b)` is the sum over the contracted coordinate; the constant two is the specification's.
-/
import proofs.«410158_j45621142618735_3_alg».proof.Proof.RefRun
import proofs.«410158_j45621142618735_3_alg».proof.Proof.Spec
import proofs.«410158_j45621142618735_3_alg».proof.Proof.LibDot
import Idealize.ShloMosaic.Lib.ValueIdx
import Idealize.ShloMosaic.Lib.Pipeline.Value
import Idealize.ShloMosaic.Lib.ValueLayout

noncomputable section

namespace Cert.ReferenceIdeal.RefValue

open Cert.ReferenceIdeal Idealize.ShloMosaic Idealize.ShloMosaic.TcCoe Idealize.SL.Sem
open Cert.ReferenceIdeal.Gen Cert.ReferenceIdeal.RefRun Idealize.ShloMosaic.ValueIdx

/-! ## The table and the code words -/

/-- The program's sixteen literal words are the specification's. -/
theorem lit0_eq_word : ∀ n : Fin 16, lit0 n = Spec.word n := by decide

/-- Entry `n` of the table is the float of the specification's `n`-th word: a rank-one index's row-major position is
    its coordinate. -/
theorem table_apply (n : Fin 16) : table (F := Ideal) (ix1 n) = FloatOps.ofBits (F := Ideal) .f32 (Spec.word n) := by
  have hn : S16.rowMajor (ix1 n) = n := Fin.ext (Shape.rowMajor_val_one _)
  unfold table
  rw [hn, lit0_eq_word]

/-- The table at a word read signed and clamped, when that word is the wrap of `w`, is the gather's reading of `w`. -/
theorem table_clamp (w c : BitVec 32) (h : c = Spec.wrap w) (h1 : min c.toInt.toNat (16 - 1) < 16) :
    table (F := Ideal) (ix1 ⟨min c.toInt.toNat (16 - 1), h1⟩) = Spec.levelRef w := by
  subst h
  exact table_apply _

/-- The wrapped code word at `(o, k)`: compare with zero, add sixteen, select — the specification's `wrap` of the word
    there (the two broadcast scalars read their constants everywhere). -/
theorem wrapped_apply (codes : IVec S14336x4096 32) (o : Fin 14336) (k : Fin 4096) :
    wrapped codes (ix2 o k) = Spec.wrap (codes (ix2 o k)) := rfl

/-- The gather's dimension numbers are those of `x[idx]` for a flat table and a matrix of indices. -/
theorem gather_dims_eq :
    gather_S16_S14336x4096x1_S14336x4096_n_0_n_n_0_2_1
      = takeDims 16 14336 4096 gather_S16_S14336x4096x1_S14336x4096_n_0_n_n_0_2_1_wf := rfl

/-- The gathered entry at `(o, k)`: the table at the wrapped word there, read signed and clamped into the table. -/
theorem gathered_apply (codes : IVec S14336x4096 32) (o : Fin 14336) (k : Fin 4096) :
    gathered (F := Ideal) codes (ix2 o k) = Spec.levelRef (codes (ix2 o k)) := by
  have hidx : (broadcastInDim S14336x4096x1 ![0, 1] bcast_S14336x4096_S14336x4096x1_0_1 (wrapped codes)) (takeIdx (ix2 o k))
      = Spec.wrap (codes (ix2 o k)) :=
    (broadcastInDim_apply _ _ (wrapped codes) (takeIdx (ix2 o k)) (ix2 o k)
      (fun a => match a with | ⟨0, _⟩ => rfl | ⟨1, _⟩ => rfl)).trans (wrapped_apply codes o k)
  unfold gathered
  rw [gather_dims_eq, gather_take_apply (by decide)]
  exact table_clamp _ _ hidx _

/-! ## The weight matrix -/

/-- The blocked, scaled entries at `(o, j, l)`: the entry selected at column `64·j + l` times the scale of block `j`. -/
theorem scaled_apply (codes : IVec S14336x4096 32) (am : FVec Ideal S14336x64 .f32) (o : Fin 14336) (j l : Fin 64)
    (k : Fin 4096) (hk : k.val = j.val * 64 + l.val) :
    scaled codes am (ix3 o j l) = Spec.levelRef (codes (ix2 o k)) * am (ix2 o j) := by
  have h1 : shapeCast S14336x64x64 (gathered (F := Ideal) codes) shapeCasts_S14336x4096_S14336x64x64 (ix3 o j l)
      = gathered (F := Ideal) codes (ix2 o k) :=
    shapeCast_apply _ _ (ix3 o j l) (ix2 o k) (by
      rw [Shape.rowMajor_val_two, Shape.rowMajor_val_three]
      show o.val * 4096 + k.val = (o.val * 64 + j.val) * 64 + l.val
      omega)
  have h2 : broadcastInDim S14336x64x64 ![0, 1, 2] bcast_S14336x64x1_S14336x64x64_0_1_2
        (broadcastInDim S14336x64x1 ![0, 1] bcast_S14336x64_S14336x64x1_0_1 am) (ix3 o j l) = am (ix2 o j) :=
    (broadcastInDim_apply _ _ _ (ix3 o j l) (ix3 o j (0 : Fin 1))
      (fun a => match a with | ⟨0, _⟩ => rfl | ⟨1, _⟩ => rfl | ⟨2, _⟩ => rfl)).trans
    (broadcastInDim_apply _ _ am (ix3 o j (0 : Fin 1)) (ix2 o j)
      (fun a => match a with | ⟨0, _⟩ => rfl | ⟨1, _⟩ => rfl))
  unfold scaled
  rw [mulf_apply, h1, h2, gathered_apply]

/-- The flat weight matrix at `(o, k)`: row-major, column `k` is element `k % 64` of block `k / 64`. -/
theorem weight_apply (codes : IVec S14336x4096 32) (am : FVec Ideal S14336x64 .f32) (o : Fin 14336) (k : Fin 4096) :
    shapeCast S14336x4096 (scaled codes am) shapeCasts_S14336x64x64_S14336x4096 (ix2 o k)
      = Spec.weight Spec.levelRef codes am o k := by
  have hj : k.val / 64 < 64 := by omega
  have hl : k.val % 64 < 64 := by omega
  refine (shapeCast_apply _ _ (ix2 o k) (ix3 o (⟨k.val / 64, hj⟩ : Fin 64) (⟨k.val % 64, hl⟩ : Fin 64)) (by
    rw [Shape.rowMajor_val_two, Shape.rowMajor_val_three]
    show (o.val * 64 + k.val / 64) * 64 + k.val % 64 = o.val * 4096 + k.val
    omega)).trans ?_
  rw [scaled_apply codes am o ⟨k.val / 64, hj⟩ ⟨k.val % 64, hl⟩ k (by show k.val = k.val / 64 * 64 + k.val % 64; omega)]
  rfl

/-- The transposed weight matrix at `(k, o)` is the weight at `(o, k)`. -/
theorem wT_apply (codes : IVec S14336x4096 32) (am : FVec Ideal S14336x64 .f32) (k : Fin 4096) (o : Fin 14336) :
    wT codes am (ix2 k o) = Spec.weight Spec.levelRef codes am o k := by
  unfold wT
  rw [transpose_ix2_apply, weight_apply]

/-! ## The products and the sum -/

/-- The base product at `(p, o)`: the sum over the columns of the activation row against the weight row. -/
theorem base_apply (x : FVec Ideal S64x4096 .f32) (codes : IVec S14336x4096 32) (am : FVec Ideal S14336x64 .f32)
    (p : Fin 64) (o : Fin 14336) :
    base x codes am (ix2 p o) = ∑ k : Fin 4096, x (ix2 p k) * Spec.weight Spec.levelRef codes am o k := by
  unfold base
  rw [Cert.LibDot.dotGeneral_plain_apply dot_S64x4096_S4096x14336_S64x14336_1_0_0_1_n_n rfl rfl rfl rfl rfl rfl]
  exact Finset.sum_congr rfl fun k _ => by rw [wT_apply]

/-- The activations through the first low-rank factor, at `(p, r)`. -/
theorem xa_apply (x : FVec Ideal S64x4096 .f32) (A : FVec Ideal S16x4096 .f32) (p : Fin 64) (r : Fin 16) :
    xa x A (ix2 p r) = ∑ k : Fin 4096, x (ix2 p k) * A (ix2 r k) := by
  unfold xa
  rw [Cert.LibDot.dotGeneral_plain_apply dot_S64x4096_S4096x16_S64x16_1_0_0_1_n_n rfl rfl rfl rfl rfl rfl]
  exact Finset.sum_congr rfl fun k _ => by rw [transpose_ix2_apply]

/-- The low-rank correction at `(p, o)`. -/
theorem lora_apply (x : FVec Ideal S64x4096 .f32) (A : FVec Ideal S16x4096 .f32) (B : FVec Ideal S14336x16 .f32)
    (p : Fin 64) (o : Fin 14336) :
    lora x A B (ix2 p o) = ∑ r : Fin 16, (∑ k : Fin 4096, x (ix2 p k) * A (ix2 r k)) * B (ix2 o r) := by
  unfold lora
  rw [Cert.LibDot.dotGeneral_plain_apply dot_S64x16_S16x14336_S64x14336_1_0_0_1_n_n rfl rfl rfl rfl rfl rfl]
  exact Finset.sum_congr rfl fun r _ => by rw [xa_apply, transpose_ix2_apply]

/-- The broadcast constant reads the specification's two everywhere: the same word, never evaluated. -/
theorem two_apply (i : S64x14336.Idx) :
    broadcastInDim S64x14336 ![] bcast_S_S64x14336 (constant (F := Ideal) S_ .f32 0x40000000#32) i = Spec.two := rfl

/-- The result at `(p, o)`: the base product plus the correction doubled. -/
theorem out_apply (x : FVec Ideal S64x4096 .f32) (codes : IVec S14336x4096 32) (am : FVec Ideal S14336x64 .f32)
    (A : FVec Ideal S16x4096 .f32) (B : FVec Ideal S14336x16 .f32) (p : Fin 64) (o : Fin 14336) :
    out x codes am A B (ix2 p o) = base x codes am (ix2 p o) + lora x A B (ix2 p o) * Spec.two := by
  unfold out
  rw [addf_apply, mulf_apply, two_apply]

/-- The reference's composed term is the specification's result array, index by index. -/
theorem out_eq (x : FVec Ideal S64x4096 .f32) (codes : IVec S14336x4096 32) (am : FVec Ideal S14336x64 .f32)
    (A : FVec Ideal S16x4096 .f32) (B : FVec Ideal S14336x16 .f32) :
    out x codes am A B = Spec.result Spec.levelRef x codes am A B := by
  funext i
  obtain ⟨p, o, rfl⟩ : ∃ (p : Fin 64) (o : Fin 14336), i = ix2 p o := ⟨i 0, i 1, eq_ix2 i⟩
  rw [Spec.result_ix2, out_apply, base_apply, lora_apply]
  rfl

/-! ## The run -/

/-- On every device, from any memory with zero counters: every weakly fair execution of the reference terminates with
    its result buffer at the specification's result of the five arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20)
          = Cert.Spec.result Cert.Spec.levelRef (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).1.trans (out_eq _ _ _ _ _), (h c).2⟩)
    (RefRun.run (F := Ideal) m ρ)

end Cert.ReferenceIdeal.RefValue

end
-- ==== Proof.PreFacts.lean ====
/-
  The precondition, read back as facts about the arguments.

  The precondition is a conjunction of six tests, each a test at every entry of one argument followed by the
  conjunction of the results over the whole array: for each of the four float arguments, "the absolute value of the
  entry is below +∞", and for the integer argument "the word is at least 0" and "the word is below 16", both
  read signed. A conjunction over a whole array that is true is true at every entry. An extended real whose
  absolute value is below +∞ is neither infinity, so it is a real number; a 32-bit word that is at least 0 and below 16
  when read signed has a value below 16 when read unsigned.
-/
import proofs.«410158_j45621142618735_3_alg».proof.Pre_finite_inputs
import proofs.«410158_j45621142618735_3_alg».proof.Proof.Gen.Pre_finite_inputs
import Idealize.ShloMosaic.Lib.Affine
import Idealize.ShloMosaic.Lib.ReduceAll
import Idealize.ShloMosaic.Lib.ValueIdx
import Idealize.ShloMosaic.PureOps.Ideal

noncomputable section

namespace Cert.PreFacts

open Idealize.ShloMosaic

/-- The shape of a scalar has one index. -/
instance scalar_idx_subsingleton : Subsingleton Cert.Pre_finite_inputs.S_.Idx := ⟨fun a b => funext fun d => d.elim0⟩

/-- The bit pattern 0x7F800000 (sign 0, exponent all ones, fraction 0) denotes +∞. -/
theorem inf_pattern : Ideal.ofBits .f32 0x7F800000#32 = (⊤ : EReal) := by
  simp [Ideal.ofBits, Ideal.ieee]

/-- An extended real whose absolute value `max v (-v)` is below +∞ is a real number: were it +∞ the maximum would be
    +∞, and were it -∞ its negation, and so the maximum, would be +∞. -/
theorem real_of_abs_lt_inf (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = (r : EReal) := by
  change Ideal.cmp .olt (max v (-v)) (Ideal.ofBits .f32 0x7F800000#32) = 1#1 at h
  rw [inf_pattern] at h
  induction v using EReal.rec with
  | bot => simp [Ideal.cmp] at h
  | coe r => exact ⟨r, rfl⟩
  | top => simp [Ideal.cmp] at h

/-- A 32-bit word that is at least 0 and below 16, read signed, is below 16 read unsigned: a word with its top bit
    set reads negative, and a word with its top bit clear reads the same both ways. -/
theorem toNat_lt_sixteen (w : BitVec 32) (h0 : IntOp.cmpi .sge w 0#32 = 1#1) (h1 : IntOp.cmpi .slt w 16#32 = 1#1) :
    w.toNat < 16 := by
  rw [IntOp.cmpi_sge] at h0
  rw [IntOp.cmpi_slt] at h1
  have z : (0#32 : BitVec 32).toInt = 0 := by decide
  have s : (16#32 : BitVec 32).toInt = 16 := by decide
  rw [z] at h0
  rw [s] at h1
  have hw := w.isLt
  rw [BitVec.toInt_eq_toNat_cond] at h0 h1
  split at h0 <;> omega

/-- What the precondition says of the arguments. Evaluated at the scalar result's one index, the precondition is a
    conjunction of six whole-array conjunctions, nested to the left in the order: first argument finite, scales finite,
    the two low-rank factors finite, code words at least 0, code words below 16. Each whole-array conjunction gives its
    test at every entry; the first two and the last two give the three facts (the low-rank factors' finiteness is not
    needed). -/
theorem of_pre [Cert.Pre_finite_inputs.Facts]
    (x : FVec Ideal Cert.Pre_finite_inputs.S64x4096 .f32) (codes : IVec Cert.Pre_finite_inputs.S14336x4096 32)
    (am : FVec Ideal Cert.Pre_finite_inputs.S14336x64 .f32) (A : FVec Ideal Cert.Pre_finite_inputs.S16x4096 .f32)
    (B : FVec Ideal Cert.Pre_finite_inputs.S14336x16 .f32)
    (h : Cert.Pre_finite_inputs.fn (F := Ideal) x codes am A B = fun _ => 1#1) :
    (∀ i, ∃ r : ℝ, x i = (r : EReal)) ∧ (∀ i, ∃ r : ℝ, am i = (r : EReal)) ∧ (∀ i, (codes i).toNat < 16) := by
  have e := congrFun h ValueIdx.ix0
  dsimp only [Cert.Pre_finite_inputs.fn, Cert.Pre_finite_inputs.fn_part1, andi] at e
  simp only [IntOp.andi_eq_one] at e
  obtain ⟨⟨⟨⟨⟨hx, ham⟩, -⟩, -⟩, hge⟩, hlt⟩ := e
  refine ⟨fun i => ?_, fun i => ?_, fun i => ?_⟩
  · exact real_of_abs_lt_inf (x i) (Host.reduce_andi_all _ _ _ _ _ hx i)
  · exact real_of_abs_lt_inf (am i) (Host.reduce_andi_all _ _ _ _ _ ham i)
  · exact toNat_lt_sixteen (codes i) (Host.reduce_andi_all _ _ _ _ _ hge i) (Host.reduce_andi_all _ _ _ _ _ hlt i)

end Cert.PreFacts

end
-- ==== Proof.lean ====
/-
  A quantised linear layer with a low-rank correction: the kernel against its reference, over the extended reals.

  Both programs compute, for a 64 × 4096 input `x`, 14336 × 4096 four-bit code words, 14336 × 64 block scales and the
  low-rank factors `A` (16 × 4096) and `B` (14336 × 16), the 64 × 14336 array
  `x · Wᵀ + 2 · (x · Aᵀ) · Bᵀ`, where `W (o, k)` is the table entry the code word `(o, k)` selects times the scale
  `(o, k / 64)` (Proof/Spec.lean).

  The reference gathers from the sixteen-entry table, so outside `[0, 16)` it wraps and clamps the index, while the
  kernel chooses the entry by the word's four low bits: the two agree exactly on code words in `[0, 16)`, which the
  precondition states beside the finiteness of the float inputs (Proof/PreFacts.lean reads it back). The kernel forms
  the base product from three products of leading parts and remainders of `x` and `W`; a change of format is the
  identity here, the remainders are `a - a`, and for finite `a` the two extra products vanish (Proof/KAlgebra.lean).
  The kernel's side: one grid point's stored block entry by entry (Proof/KPure.lean, Proof/KBody.lean), the arrays
  the host prepares (Proof/KHost.lean), and the 28 column blocks assembled into the array (Proof/KBlocks.lean). The
  reference's side: its run and its result read index by index (Proof/RefRun.lean, Proof/RefValue.lean).
-/
import proofs.«410158_j45621142618735_3_alg».proof.Defs
import proofs.«410158_j45621142618735_3_alg».proof.Proof.Gen.Kernel
import proofs.«410158_j45621142618735_3_alg».proof.Proof.Gen.Kernel.Skeleton
import proofs.«410158_j45621142618735_3_alg».proof.Proof.Gen.Kernel.Launch
import proofs.«410158_j45621142618735_3_alg».proof.Proof.Gen.Kernel.Points
import proofs.«410158_j45621142618735_3_alg».proof.Proof.Gen.Kernel.Frame
import proofs.«410158_j45621142618735_3_alg».proof.Proof.Gen.KernelIdeal
import proofs.«410158_j45621142618735_3_alg».proof.Proof.Gen.KernelIdeal.Skeleton
import proofs.«410158_j45621142618735_3_alg».proof.Proof.Gen.KernelIdeal.Launch
import proofs.«410158_j45621142618735_3_alg».proof.Proof.Gen.KernelIdeal.Points
import proofs.«410158_j45621142618735_3_alg».proof.Proof.Gen.KernelIdeal.Frame
import proofs.«410158_j45621142618735_3_alg».proof.Proof.Gen.KernelIdeal.Value
import proofs.«410158_j45621142618735_3_alg».proof.Proof.Gen.ReferenceIdeal
import proofs.«410158_j45621142618735_3_alg».proof.Proof.Gen.Pre_finite_inputs
import proofs.«410158_j45621142618735_3_alg».proof.Proof.KBlocks
import proofs.«410158_j45621142618735_3_alg».proof.Proof.RefValue
import proofs.«410158_j45621142618735_3_alg».proof.Proof.PreFacts
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, with the result forgotten. -/
theorem frame_ri : Cert.frame_ReferenceIdeal := fun m ρ _ =>
  (θ_run Cert.ReferenceIdeal.defs _ _).mono (fun _ h c => (h c).2) (Cert.ReferenceIdeal.RefValue.run m ρ)

/-- The one idealization: a 512 × 4096 block narrowed and widened again is the block, on the extended reals. -/
theorem preserves : Cert.preserves_Kernel_KernelIdeal := IdealRules.truncf_extf.statement _ .f32 .bf16

/-- Under the precondition both programs end with the specification of the arguments in their result arrays: the
    kernel's by its 28 blocks, the reference's by its run read index by index, the table read the kernel's way and
    the gather's way agreeing on code words in `[0, 16)`. -/
theorem algebraic : Cert.algebraic_KernelIdeal_ReferenceIdeal := by
  intro m ρ m' ρ' hpre hagree
  have hf := fun c => Cert.PreFacts.of_pre _ _ _ _ _ (hpre c)
  refine ⟨fun c => Cert.KernelIdeal.KBlocks.G m c,
    Cert.KernelIdeal.KBlocks.run m ρ (fun c => (hf c).1) (fun c => (hf c).2.1) (fun c => (hf c).2.2), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  exact Cert.Spec.result_levelRef _ _ _ _ _ (hf c).2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
